-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x3 : Shape := ⟨2, ![16384, 3]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : FVec F S16384x16384 .f32) (main_arg1 : FVec F S16384x3 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x16384 : Shape := ⟨2, ![16384, 16384]⟩
abbrev S16384x3 : Shape := ⟨2, ![16384, 3]⟩
abbrev S1024x2048 : Shape := ⟨2, ![1024, 2048]⟩
abbrev S2048x3 : Shape := ⟨2, ![2048, 3]⟩
abbrev S1024x3 : Shape := ⟨2, ![1024, 3]⟩
abbrev S_ : Shape := ⟨0, ![]⟩
abbrev S16384 : Shape := ⟨1, ![16384]⟩

abbrev nBuf : Space → Nat
  | .hbm => 11
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x3, .f32⟩
  | .hbm, ⟨2, _⟩ => ⟨S16384x3, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x3, .f32⟩
  | .local _ .vmem, ⟨3, _⟩ => ⟨S2048x3, .f32⟩
  | .local _ .vmem, ⟨4, _⟩ => ⟨S1024x3, .f32⟩
  | .local _ .vmem, ⟨5, _⟩ => ⟨S1024x3, .f32⟩
  | .local _ .vmem, ⟨6, _⟩ => ⟨S1024x3, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x3_S2048x3_0_0 : ∀ a, (![0, 0] : Fin 2 → Nat) a + S2048x3.size a ≤ S2048x3.size a
  h_S2048x3 : 0 < S2048x3.numel
  reducesTo_S16384x3_S16384_d1 : S16384x3.ReducesTo [1] S16384
  h_S_ : 0 < S_.numel
  reducesTo_S16384_S_d0 : S16384.ReducesTo [0] S_
  dot_S1024x2048_S2048x3_S1024x3_1_0_0_1_n_n_wf : DotDims.WF S1024x2048 S2048x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S16384x3.size a
  hwx0_1 : ∀ i : grid0.Coords, EltTy.bits .f32 = 32 ∨ (Rect.block (s := S16384x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S16384x3.size a
  hwx0_2 : ∀ i : grid0.Coords, EltTy.bits .f32 = 32 ∨ (Rect.block (s := S16384x3) S1024x3.size (cc0_transform_2 i) (hinb0_2 i)).WholeWords (EltTy.packing .f32)

variable [Facts₀]

def dot_S1024x2048_S2048x3_S1024x3_1_0_0_1_n_n : DotDims S1024x2048 S2048x3 S1024x3 where
  lhsContracting := [1]
  rhsContracting := [0]
  lhsNonContracting := [0]
  rhsNonContracting := [1]
  lhsBatch := []
  rhsBatch := []
  wf := dot_S1024x2048_S2048x3_S1024x3_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x3 : Shape := ⟨2, ![16384, 3]⟩
abbrev S_ : Shape := ⟨0, ![]⟩
abbrev S16384 : Shape := ⟨1, ![16384]⟩

abbrev nBuf : Space → Nat
  | .hbm => 11
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x3, .f32⟩
  | .hbm, ⟨2, _⟩ => ⟨S16384x3, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  reducesTo_S16384_S_d0 : S16384.ReducesTo [0] S_
  dot_S16384x16384_S16384x3_S16384x3_1_0_0_1_n_n_wf : DotDims.WF S16384x16384 S16384x3 S16384x3 [1] [0] [0] [1] [] []

variable [Facts₀]

def dot_S16384x16384_S16384x3_S16384x3_1_0_0_1_n_n : DotDims S16384x16384 S16384x3 S16384x3 where
  lhsContracting := [1]
  rhsContracting := [0]
  lhsNonContracting := [0]
  rhsNonContracting := [1]
  lhsBatch := []
  rhsBatch := []
  wf := dot_S16384x16384_S16384x3_S16384x3_1_0_0_1_n_n_wf

class Facts : Prop extends Facts₀ where

variable [Facts]
-- ==== Proof.DotPrefix.lean ====
/-
  Row-by-column dot products over the extended reals, cut at a column.

  For a 16384 × 16384 array `L` and a 16384 × 3 array `V` of extended reals, `dotUpTo L V r q n` is the sum over the
  columns `κ < n` of `L[r, κ] · V[κ, q]`, the columns taken in order. The product array `(L · V)[r, q]` is the cut at
  16384 (`lapl_apply`); the cut at 0 is zero (`dotUpTo_zero`); and the cut at `a + 2048` is the cut at `a` plus the
  2048 terms that follow (`dotUpTo_block`). Addition of extended reals is commutative and associative and zero is its
  unit, so a sum taken 2048 columns at a time, in column order and starting from zero, IS the whole sum: nothing here
  asks the entries to be finite.

  The entries are read by natural-number coordinates (`entL`, `entV`: zero outside the array, where no statement
  below looks), so that a block's offset `2048 · k + κ` is arithmetic on naturals and carries no bound inside a term.
-/
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.Lap

open Idealize.ShloMosaic Idealize.ShloMosaic.ValueIdx

/-- The shape of the square array `L`. -/
abbrev ShL : Shape := ⟨2, ![16384, 16384]⟩
/-- The shape of the three-column array `V`, and of the product. -/
abbrev ShV : Shape := ⟨2, ![16384, 3]⟩

/-- `L[r, κ]` by natural-number coordinates. -/
def entL (L : ShL.Idx → EReal) (r κ : ℕ) : EReal :=
  if h : r < 16384 ∧ κ < 16384 then L (ix2 ⟨r, h.1⟩ ⟨κ, h.2⟩) else 0

/-- `V[κ, q]` by natural-number coordinates. -/
def entV (V : ShV.Idx → EReal) (κ q : ℕ) : EReal :=
  if h : κ < 16384 ∧ q < 3 then V (ix2 ⟨κ, h.1⟩ ⟨q, h.2⟩) else 0

theorem entL_of_lt (L : ShL.Idx → EReal) {r κ : ℕ} (hr : r < 16384) (hκ : κ < 16384) :
    entL L r κ = L (ix2 ⟨r, hr⟩ ⟨κ, hκ⟩) := dif_pos ⟨hr, hκ⟩

theorem entV_of_lt (V : ShV.Idx → EReal) {κ q : ℕ} (hκ : κ < 16384) (hq : q < 3) :
    entV V κ q = V (ix2 ⟨κ, hκ⟩ ⟨q, hq⟩) := dif_pos ⟨hκ, hq⟩

/-- Row `r` of `L` against column `q` of `V`, over the columns below `n`. -/
def dotUpTo (L : ShL.Idx → EReal) (V : ShV.Idx → EReal) (r q n : ℕ) : EReal :=
  ∑ κ ∈ Finset.range n, entL L r κ * entV V κ q

/-- Over no column the sum is zero. -/
theorem dotUpTo_zero (L : ShL.Idx → EReal) (V : ShV.Idx → EReal) (r q : ℕ) : dotUpTo L V r q 0 = 0 :=
  Finset.sum_range_zero _

/-- The cut at `a + 2048` is the cut at `a` plus the next 2048 terms, given as any family `f` that agrees with them. -/
theorem dotUpTo_block (L : ShL.Idx → EReal) (V : ShV.Idx → EReal) (r q a : ℕ) (f : Fin 2048 → EReal)
    (hf : ∀ κ : Fin 2048, f κ = entL L r (a + κ.val) * entV V (a + κ.val) q) :
    dotUpTo L V r q a + ∑ κ, f κ = dotUpTo L V r q (a + 2048) := by
  unfold dotUpTo
  rw [Finset.sum_range_add, Finset.sum_range]
  exact congrArg (_ + ·) (Finset.sum_congr rfl fun κ _ => hf κ)

/-- The product array `L · V`: entry `(r, q)` is the sum over all 16384 columns `κ` of `L[r, κ] · V[κ, q]`. -/
def lapl (L : ShL.Idx → EReal) (V : ShV.Idx → EReal) : ShV.Idx → EReal :=
  fun i => ∑ κ : Fin 16384, L (ix2 (i 0) κ) * V (ix2 κ (i 1))

/-- The product's entry is the cut at the last column. -/
theorem lapl_apply (L : ShL.Idx → EReal) (V : ShV.Idx → EReal) (r : Fin 16384) (q : Fin 3) :
    lapl L V (ix2 r q) = dotUpTo L V r.val q.val 16384 := by
  unfold lapl dotUpTo
  rw [Finset.sum_range]
  refine Finset.sum_congr rfl fun κ _ => ?_
  rw [entL_of_lt L r.isLt κ.isLt, entV_of_lt V κ.isLt q.isLt]

end Cert.Lap

end
-- ==== Proof.Blocks.lean ====
/-
  Which entries of `L` and `V` a grid point sees.

  The grid has 128 points; point `t` works on row block `t / 8` (1024 rows of `L`) and column block `t % 8` (2048
  columns of `L`, hence 2048 rows of `V`). Its `L` block's entry `(p, κ)` is `L[1024·(t/8) + p, 2048·(t%8) + κ]`
  (`lblock_apply`) and its `V` block's entry `(κ, q)` is `V[2048·(t%8) + κ, q]` (`vblock_apply`): a block's coordinate
  in the array is the block index times the block's extent plus the coordinate inside the block, and the three
  windows' block indices at `t` are `(t/8, t%8)`, `(t%8, 0)` and `(t/8, 0)` (`block_index`, checked at all 128 points).
-/
import proofs.«173939_j9431748182106_1_alg».proof.Proof.Gen.KernelIdeal.Frame
import proofs.«173939_j9431748182106_1_alg».proof.Proof.DotPrefix
import Idealize.ShloMosaic.Lib.ValueIdx
import Idealize.ShloMosaic.Lib.Pipeline.Value

noncomputable section

namespace Cert.Lap

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The argument `L` on core `c`, as an array of extended reals. -/
abbrev argL (c : Dev nD) : ShL.Idx → EReal := m ((c : Thread nD τ).loc main_arg0)
/-- The argument `V` on core `c`. -/
abbrev argV (c : Dev nD) : ShV.Idx → EReal := m ((c : Thread nD τ).loc main_arg1)

/-- Point `t`'s block of `L`. -/
abbrev lblk (c : Dev nD) (t : Fin cfg0.N) : Vec Ideal S1024x2048 .f32 := iblk m c 0 t
/-- Point `t`'s block of `V`. -/
abbrev vblk (c : Dev nD) (t : Fin cfg0.N) : Vec Ideal S2048x3 .f32 := iblk m c 1 t

/-- The three windows' block indices at every point of the grid. -/
theorem block_index : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry `(p, κ)` of point `t`'s `L` block. -/
theorem lblock_apply (c : Dev nD) (t : Fin cfg0.N) (p : Fin 1024) (κ : Fin 2048) :
    lblk m c t (ix2 p κ) = entL (argL m c) (1024 * (t.val / 8) + p.val) (2048 * (t.val % 8) + κ.val) := by
  have hN : t.val < 128 := lt_of_lt_of_eq t.isLt N_0
  have hp := p.isLt
  have hκ := κ.isLt
  rw [entL_of_lt _ (by omega) (by omega)]
  unfold lblk iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * p.val = 1024 * (t.val / 8) + p.val; rw [(block_index t).1]; omega
  | ⟨1, _⟩ => show win0_0.index t 1 * 2048 + 1 * κ.val = 2048 * (t.val % 8) + κ.val; rw [(block_index t).2.1]; omega

/-- Entry `(κ, q)` of point `t`'s `V` block. -/
theorem vblock_apply (c : Dev nD) (t : Fin cfg0.N) (κ : Fin 2048) (q : Fin 3) :
    vblk m c t (ix2 κ q) = entV (argV m c) (2048 * (t.val % 8) + κ.val) q.val := by
  have hN : t.val < 128 := lt_of_lt_of_eq t.isLt N_0
  have hκ := κ.isLt
  have hq := q.isLt
  rw [entV_of_lt _ (by omega) hq]
  unfold vblk iblk
  rw [View.read_apply]
  show m ((c : Thread nD τ).loc main_arg1) _ = m ((c : Thread nD τ).loc main_arg1) _
  congr 1
  funext a
  apply Fin.ext
  match a with
  | ⟨0, _⟩ => show win0_1.index t 0 * 2048 + 1 * κ.val = 2048 * (t.val % 8) + κ.val; rw [(block_index t).2.2.1]; omega
  | ⟨1, _⟩ => show win0_1.index t 1 * 3 + 1 * q.val = q.val; rw [(block_index t).2.2.2.1]; omega

end Cert.Lap

end
-- ==== Proof.BlockProduct.lean ====
/-
  One grid point's arithmetic, entry by entry, over the extended reals.

  At a grid point the kernel holds a 1024 × 2048 block `x0` of `L`, a 2048 × 3 block `x1` of `V` and its 1024 × 3
  accumulator `xs`, and replaces the accumulator by `xs + x0 · x1`: the two blocks are narrowed to bf16 first, which on
  the extended reals changes nothing, and the matrix unit's product into a zero accumulator is the plain sum of the 2048
  products (`blockDot_apply`). So the new accumulator's entry `(p, q)` is the old entry plus the sum over `κ < 2048` of
  `x0[p, κ] · x1[κ, q]` (`update_apply`), and the accumulator the first point of a row block starts from is zero
  everywhere (`reset_apply`).

  The matrix product's operand indices are computed once, axis by axis, from its dimension numbers: output index
  `(p, q)` and contraction coordinate `κ` meet the left operand at `(p, κ)` and the right at `(κ, q)`.
-/
import proofs.«173939_j9431748182106_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Lap

open Idealize.ShloMosaic Idealize.ShloMosaic.ValueIdx
open Cert.KernelIdeal Cert.KernelIdeal.Gen

/-! ## The block product's operand indices, axis by axis -/

theorem lhs_block_0 (i : S1024x3.Idx) (k : dot_S1024x2048_S2048x3_S1024x3_1_0_0_1_n_n.contr.Idx) :
    (dot_S1024x2048_S2048x3_S1024x3_1_0_0_1_n_n.lhsIdx i k 0).val = (i 0).val := by
  unfold DotDims.lhsIdx
  rw [dif_neg (show ¬(0 : Fin S1024x2048.rank) ∈ dot_S1024x2048_S2048x3_S1024x3_1_0_0_1_n_n.lhsBatch by decide), dif_pos (show (0 : Fin S1024x2048.rank) ∈ dot_S1024x2048_S2048x3_S1024x3_1_0_0_1_n_n.lhsNonContracting by decide)]
  rfl
theorem lhs_block_1 (i : S1024x3.Idx) (k : dot_S1024x2048_S2048x3_S1024x3_1_0_0_1_n_n.contr.Idx) :
    (dot_S1024x2048_S2048x3_S1024x3_1_0_0_1_n_n.lhsIdx i k 1).val = (k ⟨0, by decide⟩).val :=
  dot_S1024x2048_S2048x3_S1024x3_1_0_0_1_n_n.lhsIdx_val_of_single rfl i k
theorem rhs_block_0 (i : S1024x3.Idx) (k : dot_S1024x2048_S2048x3_S1024x3_1_0_0_1_n_n.contr.Idx) :
    (dot_S1024x2048_S2048x3_S1024x3_1_0_0_1_n_n.rhsIdx i k 0).val = (k ⟨0, by decide⟩).val :=
  dot_S1024x2048_S2048x3_S1024x3_1_0_0_1_n_n.rhsIdx_val_of_single rfl i k
theorem rhs_block_1 (i : S1024x3.Idx) (k : dot_S1024x2048_S2048x3_S1024x3_1_0_0_1_n_n.contr.Idx) :
    (dot_S1024x2048_S2048x3_S1024x3_1_0_0_1_n_n.rhsIdx i k 1).val = (i 1).val := by
  unfold DotDims.rhsIdx
  rw [dif_neg (show ¬(1 : Fin S2048x3.rank) ∈ dot_S1024x2048_S2048x3_S1024x3_1_0_0_1_n_n.rhsBatch by decide), dif_pos (show (1 : Fin S2048x3.rank) ∈ dot_S1024x2048_S2048x3_S1024x3_1_0_0_1_n_n.rhsNonContracting by decide)]
  rfl

/-! ## The product of two blocks, and the accumulator's update -/

/-- The matrix unit's product of a 1024 × 2048 block and a 2048 × 3 block into a zero accumulator, at entry `(p, q)`: the
    sum over the 2048 contracted coordinates of the products. -/
theorem blockDot_apply (l : FVec Ideal S1024x2048 .bf16) (r : FVec Ideal S2048x3 .bf16) (p : Fin 1024) (q : Fin 3) :
    matmul (F := Ideal) dot_S1024x2048_S2048x3_S1024x3_1_0_0_1_n_n none l r (constant S1024x3 .f32 0x00000000#32) (ix2 p q)
      = ∑ κ : Fin 2048, l (ix2 p κ) * r (ix2 κ q) := by
  simp only [matmul]
  rw [Ideal.matmul_constant_zero_apply, ← Equiv.sum_comp (ValueIdx.contrEquiv1 dot_S1024x2048_S2048x3_S1024x3_1_0_0_1_n_n 2048 rfl rfl).symm]
  refine Finset.sum_congr rfl fun κ _ => ?_
  have hk := ValueIdx.contrEquiv1_symm_val dot_S1024x2048_S2048x3_S1024x3_1_0_0_1_n_n 2048 rfl rfl κ
  have el : dot_S1024x2048_S2048x3_S1024x3_1_0_0_1_n_n.lhsIdx (ix2 p q) ((ValueIdx.contrEquiv1 dot_S1024x2048_S2048x3_S1024x3_1_0_0_1_n_n 2048 rfl rfl).symm κ) = ix2 p κ := funext fun a => Fin.ext (by
    match a with
    | ⟨0, _⟩ => exact lhs_block_0 _ _
    | ⟨1, _⟩ => exact (lhs_block_1 _ _).trans hk)
  have er : dot_S1024x2048_S2048x3_S1024x3_1_0_0_1_n_n.rhsIdx (ix2 p q) ((ValueIdx.contrEquiv1 dot_S1024x2048_S2048x3_S1024x3_1_0_0_1_n_n 2048 rfl rfl).symm κ) = ix2 κ q := funext fun a => Fin.ext (by
    match a with
    | ⟨0, _⟩ => exact (rhs_block_0 _ _).trans hk
    | ⟨1, _⟩ => exact rhs_block_1 _ _)
  rw [el, er]

/-- The accumulator after a point, at entry `(p, q)`: the accumulator before it there, plus row `p` of the `L` block
    against column `q` of the `V` block. -/
theorem update_apply (x0 : Vec Ideal S1024x2048 .f32) (x1 : Vec Ideal S2048x3 .f32) (xs : Vec Ideal S1024x3 .f32)
    (p : Fin 1024) (q : Fin 3) :
    k0_pay2 (F := Ideal) x0 x1 xs (ix2 p q) = xs (ix2 p q) + ∑ κ : Fin 2048, x0 (ix2 p κ) * x1 (ix2 κ q) := by
  unfold k0_pay2
  refine (congrFun (shapeCast_self _ _) (ix2 p q)).trans ?_
  refine (addf_apply _ _ (ix2 p q)).trans ?_
  exact congrArg (xs (ix2 p q) + ·) (blockDot_apply _ _ p q)

/-- The accumulator a row block starts from is zero at every entry. -/
theorem reset_apply (i : S1024x3.Idx) : k0_pay1 (F := Ideal) i = 0 := by
  unfold k0_pay1
  refine (congrFun (shapeCast_self _ _) i).trans ?_
  exact Ideal.ofBits_zero_f32

end Cert.Lap

end
-- ==== Proof.Pieces.lean ====
/-
  What one grid point leaves behind, as values.

  A point of the grid is in one of three cases, by its position `k` among the eight column blocks of its row block:
  the first (`k = 0`: the accumulator is reset to zero, then updated), a middle one (updated only) or the last
  (`k = 7`: updated, then copied to the output block). In every case the accumulator ends at the update
  `acc + x0 · x1` of the point's two input blocks (`k0_pay2`), taken over zero (`k0_pay1`) in the first case and over the
  accumulator the point before left in the others; and in the last case the output block ends at that same value,
  because the copy reads the accumulator after the update has covered it.

  Each statement holds at every float instance: it is about which store's value is read back, not about arithmetic.
-/
import proofs.«173939_j9431748182106_1_alg».proof.Proof.Gen.KernelIdeal.Frame
import Idealize.ShloMosaic.Lib.Pipeline.Value
import Idealize.ShloMosaic.Lib.Tactic

noncomputable section

namespace Cert.Lap

open Idealize.ShloMosaic Idealize.ShloMosaic.TcCoe Idealize.ShloMosaic.Tactic Idealize.SL.Sem
open Cert.KernelIdeal Cert.KernelIdeal.Gen

variable {F : FTy → Type} [FloatOps F]

/-- Every load and store of the body starts at the block's origin. -/
theorem origin2 : (![0, 0] : Fin 2 → Nat) = fun _ => 0 := funext fun a => by fin_cases a <;> rfl

/-- A middle point: the accumulator ends at the update over what the point before left. -/
theorem acc_middle (c : Dev nD) (i : grid0.Coords) (arg2 : Memref sig .tc .vmem S1024x2048 .f32) (harg2 : arg2.IsWhole) (arg3 : Memref sig .tc .vmem S2048x3 .f32) (harg3 : arg3.IsWhole) (arg4 : Memref sig .tc .vmem S1024x3 .f32) (harg4 : arg4.IsWhole) (arg5 : Memref sig .tc .vmem S1024x3 .f32) (harg5 : arg5.IsWhole) (hc0 : ¬cond0_0 i) (hc1 : ¬cond0_1 i)
    (x0 : Vec F S1024x2048 .f32) (x1 : Vec F S2048x3 .f32) (xs0 : Vec F S1024x3 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin2]
  simp only [View.readAt_eq_ld, harg2.read_unread, harg3.read_unread, harg5.read_unread,
    View.ld_unit_zero (S := S1024x2048) origin2, View.ld_unit_zero (S := S2048x3) origin2, View.ld_unit_zero (S := S1024x3) origin2]

/-- The first point of a row block: the accumulator ends at the update over zero. -/
theorem acc_first (c : Dev nD) (i : grid0.Coords) (arg2 : Memref sig .tc .vmem S1024x2048 .f32) (harg2 : arg2.IsWhole) (arg3 : Memref sig .tc .vmem S2048x3 .f32) (harg3 : arg3.IsWhole) (arg4 : Memref sig .tc .vmem S1024x3 .f32) (harg4 : arg4.IsWhole) (arg5 : Memref sig .tc .vmem S1024x3 .f32) (harg5 : arg5.IsWhole) (hc0 : cond0_0 i) (hc1 : ¬cond0_1 i)
    (x0 : Vec F S1024x2048 .f32) (x1 : Vec F S2048x3 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x3) origin2]
  simp only [View.readAt_eq_ld, harg2.read_unread, harg3.read_unread,
    View.ld_unit_zero (S := S1024x2048) origin2, View.ld_unit_zero (S := S2048x3) origin2,
    View.readCov_unit_zero (S := S1024x3) _ origin2]

/-- The last point of a row block: the accumulator ends at the update over what the point before left, -/
theorem acc_last (c : Dev nD) (i : grid0.Coords) (arg2 : Memref sig .tc .vmem S1024x2048 .f32) (harg2 : arg2.IsWhole) (arg3 : Memref sig .tc .vmem S2048x3 .f32) (harg3 : arg3.IsWhole) (arg4 : Memref sig .tc .vmem S1024x3 .f32) (harg4 : arg4.IsWhole) (arg5 : Memref sig .tc .vmem S1024x3 .f32) (harg5 : arg5.IsWhole) (hc0 : ¬cond0_0 i) (hc1 : cond0_1 i)
    (x0 : Vec F S1024x2048 .f32) (x1 : Vec F S2048x3 .f32) (xs0 : Vec F S1024x3 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread,
    View.ld_unit_zero (S := S1024x2048) origin2, View.ld_unit_zero (S := S2048x3) origin2, View.ld_unit_zero (S := S1024x3) origin2]

/-- and the output block ends at the same value: the copy reads the accumulator after the update. -/
theorem out_last (c : Dev nD) (i : grid0.Coords) (arg2 : Memref sig .tc .vmem S1024x2048 .f32) (harg2 : arg2.IsWhole) (arg3 : Memref sig .tc .vmem S2048x3 .f32) (harg3 : arg3.IsWhole) (arg4 : Memref sig .tc .vmem S1024x3 .f32) (harg4 : arg4.IsWhole) (arg5 : Memref sig .tc .vmem S1024x3 .f32) (harg5 : arg5.IsWhole) (hc0 : ¬cond0_0 i) (hc1 : cond0_1 i)
    (x0 : Vec F S1024x2048 .f32) (x1 : Vec F S2048x3 .f32) (xs0 : Vec F S1024x3 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread,
    View.ld_unit_zero (S := S1024x2048) origin2, View.ld_unit_zero (S := S2048x3) origin2, View.ld_unit_zero (S := S1024x3) origin2,
    View.readCov_unit_zero (S := S1024x3) _ origin2]

end Cert.Lap

end
-- ==== Proof.Accumulate.lean ====
/-
  The accumulator, point by point.

  Within a row block the eight points run over the column blocks in order, and each adds its block's 2048 products to
  the accumulator, the first one onto zero. So after point `n` the accumulator's entry `(p, q)` is row
  `1024·(n/8) + p` of `L` against column `q` of `V` over the columns below `2048·(n%8 + 1)` (`acc_after`): by
  induction on the point, each step one block appended to the sum (`update_dot` over `dotUpTo_block`; `acc_at_first`
  for the first point of a row block, `acc_at_later` for the others). At the last point of a row block (`n % 8 = 7`)
  that is all 16384 columns, and the output block holds the same value (`out_after`).
-/
import proofs.«173939_j9431748182106_1_alg».proof.Proof.Blocks
import proofs.«173939_j9431748182106_1_alg».proof.Proof.BlockProduct
import proofs.«173939_j9431748182106_1_alg».proof.Proof.Pieces

noncomputable section

namespace Cert.Lap

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The accumulator as the point before `t` left it. -/
abbrev prevAcc (c : Dev nD) (t : Fin cfg0.N) : Vec Ideal S1024x3 .f32 :=
  (outsAt0 m c (t.val - 1) (Nat.lt_of_le_of_lt (Nat.sub_le _ _) t.isLt)).2

/-- One point's update appends its column block to the sum: if the accumulator's entry is the dot product cut at the
    block's first column `a`, the updated entry is the dot product cut at `a + 2048`. -/
theorem update_dot (c : Dev nD) (t : Fin cfg0.N) (xs : Vec Ideal S1024x3 .f32) (p : Fin 1024) (q : Fin 3) (r a b : ℕ)
    (hr : r = 1024 * (t.val / 8) + p.val) (ha : a = 2048 * (t.val % 8)) (hb : b = a + 2048)
    (hxs : xs (ix2 p q) = dotUpTo (argL m c) (argV m c) r q.val a) :
    k0_pay2 (F := Ideal) (lblk m c t) (vblk m c t) xs (ix2 p q) = dotUpTo (argL m c) (argV m c) r q.val b := by
  subst hr ha hb
  refine (update_apply (lblk m c t) (vblk m c t) xs p q).trans ?_
  rw [hxs]
  exact dotUpTo_block (argL m c) (argV m c) _ _ _ (fun κ => lblk m c t (ix2 p κ) * vblk m c t (ix2 κ q))
    (fun κ => by rw [lblock_apply m c t p κ, vblock_apply m c t κ q])

/-- The first point of a row block leaves the dot product over the first 2048 columns. -/
theorem acc_at_first (c : Dev nD) (t : Fin cfg0.N) (h0 : t.val % 8 = 0) (p : Fin 1024) (q : Fin 3) :
    (outsAt0 m c t.val t.isLt).2 (ix2 p q)
      = dotUpTo (argL m c) (argV m c) (1024 * (t.val / 8) + p.val) q.val 2048 := by
  have h1 : ¬t.val % 8 = 7 := by omega
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
    (iblk m c 0 t) (iblk m c 1 t)) (ix2 p q)).trans ?_
  exact update_dot m c t (k0_pay1 (F := Ideal)) p q (1024 * (t.val / 8) + p.val) 0 2048 rfl (by omega) rfl
    ((reset_apply (ix2 p q)).trans (dotUpTo_zero (argL m c) (argV m c) _ _).symm)

/-- A later point of a row block appends its 2048 columns to what the point before left. -/
theorem acc_at_later (c : Dev nD) (t : Fin cfg0.N) (h0 : ¬t.val % 8 = 0) (p : Fin 1024) (q : Fin 3) (a : ℕ)
    (ha : a = 2048 * (t.val % 8))
    (ih : prevAcc m c t (ix2 p q) = dotUpTo (argL m c) (argV m c) (1024 * (t.val / 8) + p.val) q.val a) :
    (outsAt0 m c t.val t.isLt).2 (ix2 p q)
      = dotUpTo (argL m c) (argV m c) (1024 * (t.val / 8) + p.val) q.val (a + 2048) := by
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (prevAcc m c t)) (ix2 p q)).trans ?_
    exact update_dot m c t (prevAcc m c t) p q (1024 * (t.val / 8) + p.val) a (a + 2048) rfl ha rfl ih
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h))
      (iblk m c 0 t) (iblk m c 1 t) (prevAcc m c t)) (ix2 p q)).trans ?_
    exact update_dot m c t (prevAcc m c t) p q (1024 * (t.val / 8) + p.val) a (a + 2048) rfl ha rfl ih

/-- After point `n` the accumulator's entry `(p, q)` is the dot product of row `1024·(n/8) + p` with column `q` over
    the columns below `2048·(n%8 + 1)`. -/
theorem acc_after (c : Dev nD) : ∀ (n : ℕ) (h : n < cfg0.N) (p : Fin 1024) (q : Fin 3),
    (outsAt0 m c n h).2 (ix2 p q)
      = dotUpTo (argL m c) (argV m c) (1024 * (n / 8) + p.val) q.val (2048 * (n % 8 + 1))
  | 0, h, p, q => acc_at_first m c ⟨0, h⟩ rfl p q
  | n + 1, h, p, q => by
    by_cases h0 : (n + 1) % 8 = 0
    · have key := acc_at_first m c ⟨n + 1, h⟩ h0 p q
      rw [h0]
      exact key
    · have e8 : (n + 1) / 8 = n / 8 := by omega
      have em : (n + 1) % 8 = n % 8 + 1 := by omega
      have ih := acc_after c n (Nat.lt_of_succ_lt h) p q
      have key := acc_at_later m c ⟨n + 1, h⟩ h0 p q (2048 * (n % 8 + 1))
        (by show 2048 * (n % 8 + 1) = 2048 * ((n + 1) % 8); rw [em])
        (by show (outsAt0 m c (n + 1 - 1) _).2 (ix2 p q) = dotUpTo _ _ (1024 * ((n + 1) / 8) + p.val) q.val _
            rw [e8]; exact ih)
      rw [em, Nat.mul_succ 2048 (n % 8 + 1)]
      exact key

/-- At the last point of a row block the output block's entry `(p, q)` is the whole dot product of row
    `1024·(t/8) + p` with column `q`: the copy of the accumulator after its eighth update. -/
theorem out_after (c : Dev nD) (t : Fin cfg0.N) (h7 : t.val % 8 = 7) (p : Fin 1024) (q : Fin 3) :
    (outsAt0 m c t.val t.isLt).1 (ix2 p q)
      = dotUpTo (argL m c) (argV m c) (1024 * (t.val / 8) + p.val) q.val 16384 := by
  have h0 : ¬t.val % 8 = 0 := by omega
  have e8 : (t.val - 1) / 8 = t.val / 8 := by omega
  have em : (t.val - 1) % 8 = 6 := by omega
  have ih := acc_after m c (t.val - 1) (Nat.lt_of_le_of_lt (Nat.sub_le _ _) t.isLt) p q
  rw [e8, em] at ih
  rw [outsAt0_C m c t h0 h7]
  dsimp only
  refine (congrFun (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7)
    (iblk m c 0 t) (iblk m c 1 t) (prevAcc m c t)) (ix2 p q)).trans ?_
  exact update_dot m c t (prevAcc m c t) p q (1024 * (t.val / 8) + p.val) (2048 * (6 + 1)) 16384 rfl (by omega) rfl ih

end Cert.Lap

end
-- ==== Proof.MeanNorm.lean ====
/-
  The scalar both programs end with: the mean, over the 16384 rows of a 16384 × 3 array, of the row's Euclidean norm.

  `meanRowNorm x` squares `x` entry by entry, sums each row's three squares from zero, takes the square root of each
  row's sum, sums the 16384 roots from zero and divides by 16384 — the same eight host operations, with the same
  constants, in both programs, applied to the product `L · V`. Nothing is proved ABOUT it: two programs that apply it to
  equal arrays have equal results, whatever it computes.
-/
import proofs.«173939_j9431748182106_1_alg».proof.Proof.DotPrefix

noncomputable section

namespace Cert.Lap

open Idealize.ShloMosaic

/-- One entry per row of `V`. -/
abbrev ShRow : Shape := ⟨1, ![16384]⟩
/-- The scalar shape. -/
abbrev ShOne : Shape := ⟨0, ![]⟩

/-- The mean over the rows of the Euclidean norm of a row, as the host computes it (the side conditions of its two sums
    are arguments: each program states its own). -/
def meanRowNorm (hcol : ShV.ReducesTo [1] ShRow) (hone : 0 < ShOne.numel) (hrow : ShRow.ReducesTo [0] ShOne)
    (x : FVec Ideal ShV .f32) : FVec Ideal ShOne .f32 :=
  Host.divf (F := Ideal)
    (Host.reduceAdd (F := Ideal)
      (Host.sqrt (F := Ideal)
        (Host.reduceAdd (F := Ideal) (mulf (F := Ideal) x x) (constant (F := Ideal) ShOne .f32 0x00000000#32) hcol hone))
      (constant (F := Ideal) ShOne .f32 0x00000000#32) hrow hone)
    (constant (F := Ideal) ShOne .f32 0x46800000#32)

end Cert.Lap

end
-- ==== Proof.Product.lean ====
/-
  What the kernel's run leaves: the product `L · V` in its result array, and its mean row norm in the result.

  Only the last point of each row block writes its output block back (`t % 8 = 7`), and what it writes is the
  accumulator after the eighth update: rows `1024·(t/8) … 1024·(t/8) + 1023` of `L · V` (`flushed_eq`, from
  `out_after`: the dot product over all 16384 columns is the product's entry). Row `r` lies in the block written at
  point `8·(r/1024) + 7`, so the sixteen written blocks cover the array (`covered`) and the result array ends at
  `L · V` (`final`). The lines of the program after the kernel then take the mean row norm of that array (`run`).
-/
import proofs.«173939_j9431748182106_1_alg».proof.Proof.Accumulate
import proofs.«173939_j9431748182106_1_alg».proof.Proof.MeanNorm
import Idealize.ShloMosaic.Lib.Pipeline.Value
import Idealize.ShloMosaic.Lib.StableHlo.Run

noncomputable section

namespace Cert.Lap

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The product of the two arguments on core `c`, as contents of the kernel's result array. -/
abbrev product (c : Dev nD) : Buf (Elt Ideal) ((c : Thread nD τ).loc main_v0) := lapl (argL m c) (argV m c)

/-- Entry `(p, q)` of point `t`'s output block, read off any contents `G` of the result array, is `G`'s entry in row
    `1024·(t/8) + p` and column `q`. -/
theorem outBlock_apply (c : Dev nD) (G : Buf (Elt Ideal) ((c : Thread nD τ).loc main_v0)) (t : Fin cfg0.N)
    (p : Fin 1024) (q : Fin 3) (hr : 1024 * (t.val / 8) + p.val < 16384) :
    ((cfg0.win 2).blk t).view.read (Elt Ideal) G (ix2 p q) = G (ix2 ⟨1024 * (t.val / 8) + p.val, hr⟩ q) := by
  rw [View.read_apply]
  show G _ = G _
  congr 1
  funext a
  apply Fin.ext
  match a with
  | ⟨0, _⟩ => show win0_2.index t 0 * 1024 + 1 * p.val = 1024 * (t.val / 8) + p.val; rw [(block_index t).2.2.2.2.1]; omega
  | ⟨1, _⟩ => show win0_2.index t 1 * 3 + 1 * q.val = q.val; rw [(block_index t).2.2.2.2.2]; omega

/-- A point that writes its output block back writes that block of the product. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  have hN : t.val < 128 := lt_of_lt_of_eq t.isLt N_0
  show (cfg0.win 2).cut (grid0.coords t) ((dats m 0 c).after 2 t) = _
  rw [after0_2]
  funext j
  obtain ⟨p, q, rfl⟩ : ∃ (p : Fin 1024) (q : Fin 3), j = ix2 p q := ⟨j 0, j 1, eq_ix2 (n0 := 1024) (n1 := 3) j⟩
  have hp := p.isLt
  show (outsAt0 m c t.val t.isLt).1 (ix2 p q) = _
  have hr : 1024 * (t.val / 8) + p.val < 16384 := by omega
  rw [out_after m c t h7 p q]
  refine Eq.trans ?_ (outBlock_apply c (product m c) t p q hr).symm
  exact (lapl_apply (argL m c) (argV m c) ⟨1024 * (t.val / 8) + p.val, hr⟩ q).symm

/-- Every row of the result array lies in the block written back at the last point of its row block. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : ℕ) < 16384 := (i 0).isLt
  have hi1 : (i 1 : ℕ) < 3 := (i 1).isLt
  have hN : cfg0.N = 128 := N_0
  obtain ⟨t, ht⟩ : ∃ t : Fin cfg0.N, t.val = 8 * ((i 0 : ℕ) / 1024) + 7 := ⟨⟨_, by rw [hN]; omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 1024 ≤ (i 0 : ℕ) ∧ (i 0 : ℕ) < win0_2.index t 0 * 1024 + 1024
    rw [(block_index t).2.2.2.2.1]; omega
  | ⟨1, _⟩ =>
    show win0_2.index t 1 * 3 ≤ (i 1 : ℕ) ∧ (i 1 : ℕ) < win0_2.index t 1 * 3 + 3
    rw [(block_index t).2.2.2.2.2]; omega

/-- The kernel's result array ends at the product. -/
theorem final (c : Dev nD) : (dats m 0 c).arrAt 2 cfg0.N = product m c :=
  (dats m 0 c).arrAt_eq_of_cover 2 (product m c) (flushed_eq m c) (covered c)

/-- The run, read: the program's result is the mean row norm of the product, and the arguments are unchanged. -/
theorem run : θ_run defs (onTc (τ := τ) (main (F := Ideal))) ⟨m, fun _ => 0, ρ⟩ fun r => ∀ c : Dev nD,
      r.2.mem ((c : Thread nD τ).loc main_v5)
        = meanRowNorm Facts₀.reducesTo_S16384x3_S16384_d1 Facts₀.h_S_ Facts₀.reducesTo_S16384_S_d0 (product m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans ((dats m 0 c).arrAt_in 0 rfl _),
    ((h c).1 1).trans ((dats m 0 c).arrAt_in 1 rfl _)⟩) (run_main m ρ)
  refine ((h c).2 main_v5 (Pipeline.mem_restRefs_of main_v5 rfl (by decide))).trans ?_
  unfold Pipeline.afterTail₀
  show StableHlo.after hostOps1 _ (Proc.devRef .tc main_v5) = _
  after_results
  exact congrArg (meanRowNorm Facts₀.reducesTo_S16384x3_S16384_d1 Facts₀.h_S_ Facts₀.reducesTo_S16384_S_d0)
    ((Pipeline.withArrays_arr spec0 winFacts0.arr_inj c (V0 m c) (fun w => (dats m 0 c).arrAt w cfg0.N) 2).trans (final m c))

end Cert.Lap

end
-- ==== Proof.Reference.lean ====
/-
  The reference: one matrix product, then the mean row norm.

  The host's product of `L` and `V` is, entry by entry, the sum over all 16384 columns `κ` of `L[r, κ] · V[κ, q]`:
  the array `lapl L V` (`matmul_eq`). The reference's result is the mean row norm of it (`result_eq`).
-/
import proofs.«173939_j9431748182106_1_alg».proof.Proof.Gen.ReferenceIdeal.Read
import proofs.«173939_j9431748182106_1_alg».proof.Proof.MeanNorm
import Idealize.ShloMosaic.Lib.ValueIdx

noncomputable section

namespace Cert.Lap.Ref

open Idealize.ShloMosaic Idealize.ShloMosaic.ValueIdx
open Cert.ReferenceIdeal Cert.ReferenceIdeal.Gen

/-- The host's matrix product of the two arguments is the product array. -/
theorem matmul_eq (L : FVec Ideal S16384x16384 .f32) (V : FVec Ideal S16384x3 .f32) :
    Host.dotGeneral (F := Ideal) dot_S16384x16384_S16384x3_S16384x3_1_0_0_1_n_n none L V = Cert.Lap.lapl L V := by
  funext i
  obtain ⟨r, q, rfl⟩ : ∃ (r : Fin 16384) (q : Fin 3), i = ix2 r q := ⟨i 0, i 1, eq_ix2 i⟩
  refine (Cert.ReferenceIdeal.Read.val_main_v0_apply L V (ix2 r q)).trans ?_
  unfold Cert.Lap.lapl
  refine Finset.sum_congr rfl fun k _ => ?_
  have el : Cert.ReferenceIdeal.Read.lidx_main_v0 (ix2 r q) k = ix2 r k :=
    funext fun a => by match a with | ⟨0, _⟩ => rfl | ⟨1, _⟩ => rfl
  have er : Cert.ReferenceIdeal.Read.ridx_main_v0 (ix2 r q) k = ix2 k q :=
    funext fun a => by match a with | ⟨0, _⟩ => rfl | ⟨1, _⟩ => rfl
  show L (Cert.ReferenceIdeal.Read.lidx_main_v0 (ix2 r q) k) * V (Cert.ReferenceIdeal.Read.ridx_main_v0 (ix2 r q) k)
    = L (ix2 r k) * V (ix2 k q)
  rw [el, er]

/-- The reference's result, as its run states it, is the mean row norm of the product array. -/
theorem result_eq (L : FVec Ideal S16384x16384 .f32) (V : FVec Ideal S16384x3 .f32) :
    Host.divf (F := Ideal) (Host.reduceAdd (Host.sqrt (Host.reduceAdd
        (mulf (Host.dotGeneral dot_S16384x16384_S16384x3_S16384x3_1_0_0_1_n_n none L V) (Host.dotGeneral dot_S16384x16384_S16384x3_S16384x3_1_0_0_1_n_n none L V))
        (constant S_ .f32 0x00000000#32) Facts₀.reducesTo_S16384x3_S16384_d1 Facts₀.h_S_))
        (constant S_ .f32 0x00000000#32) Facts₀.reducesTo_S16384_S_d0 Facts₀.h_S_) (constant S_ .f32 0x46800000#32)
      = Cert.Lap.meanRowNorm Facts₀.reducesTo_S16384x3_S16384_d1 Facts₀.h_S_ Facts₀.reducesTo_S16384_S_d0 (Cert.Lap.lapl L V) := by
  rw [matmul_eq]
  rfl

end Cert.Lap.Ref

end
-- ==== Proof.lean ====
/-
  The mean row norm of a matrix product: a tiled kernel against one whole product.

  For a 16384 × 16384 array `L` and a 16384 × 3 array `V`, both programs compute the mean, over the 16384 rows of
  `L · V`, of the row's Euclidean norm. The reference takes the product in one piece. The kernel takes it 1024 rows by
  2048 columns at a time: for each block of 1024 rows it adds up, starting from zero, the eight partial products over
  the eight blocks of 2048 columns, in column order, and writes the block of rows out after the eighth. Both then apply
  the same host operations — square, sum each row, square root, sum, divide by 16384 — to the product array.

  Over the extended reals, where the idealized programs are read, narrowing a block to bf16 changes nothing and a matrix
  product is the plain sum of its products; and addition is commutative and associative with unit zero, so a sum of
  16384 terms taken as eight runs of 2048, in order and from zero, is the sum. The two product arrays are therefore equal
  entry by entry (Proof/DotPrefix.lean states the sums, Proof/Accumulate.lean carries the partial sum through the grid,
  Proof/Product.lean reads the kernel's result array, Proof/Reference.lean the reference's), and the common tail
  (Proof/MeanNorm.lean) is applied to equal arrays. No step asks an entry to be finite: the precondition is not used by
  the value claim.

  The claims: the two kernel programs run and keep their arguments by their generated frames; the reference by its
  generated run; the idealization rewrote nothing, so `preserves` holds trivially; and `algebraic` is the equality above.
-/
import proofs.«173939_j9431748182106_1_alg».proof.Defs
import proofs.«173939_j9431748182106_1_alg».proof.Proof.Product
import proofs.«173939_j9431748182106_1_alg».proof.Proof.Reference
import proofs.«173939_j9431748182106_1_alg».proof.Proof.Gen.Kernel
import proofs.«173939_j9431748182106_1_alg».proof.Proof.Gen.Kernel.Frame
import proofs.«173939_j9431748182106_1_alg».proof.Proof.Gen.KernelIdeal
import proofs.«173939_j9431748182106_1_alg».proof.Proof.Gen.KernelIdeal.Frame
import proofs.«173939_j9431748182106_1_alg».proof.Proof.Gen.ReferenceIdeal
import proofs.«173939_j9431748182106_1_alg».proof.Proof.Gen.ReferenceIdeal.Run
import proofs.«173939_j9431748182106_1_alg».proof.Proof.Gen.ReferenceIdeal.Read
import proofs.«173939_j9431748182106_1_alg».proof.Proof.Gen.Pre_finite_inputs
import Idealize.ShloMosaic.Adequacy
import Idealize.ShloMosaic.Init

noncomputable section

namespace Cert.Proof

open Idealize.ShloMosaic Idealize.SL.Sem

/-- The kernel as printed runs, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the idealized kernel and the idealized reference both end at the mean row norm of the
    product of the arguments: the kernel's result array holds the product (`Cert.Lap.run`), and the reference's matrix
    product is the same array (`Cert.Lap.Ref.result_eq`). -/
theorem algebraic : Cert.algebraic_KernelIdeal_ReferenceIdeal := by
  intro m ρ m' ρ' _ hagree
  refine ⟨fun c => Cert.Lap.meanRowNorm Cert.KernelIdeal.Facts₀.reducesTo_S16384x3_S16384_d1 Cert.KernelIdeal.Facts₀.h_S_
    Cert.KernelIdeal.Facts₀.reducesTo_S16384_S_d0 (Cert.Lap.product m c), Cert.Lap.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Lap.Ref.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
